-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x512 : Shape := ⟨2, ![512, 512]⟩
abbrev S2048x512 : Shape := ⟨2, ![2048, 512]⟩
abbrev S512x2048 : Shape := ⟨2, ![512, 2048]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S2048x512, .f32⟩
  | .local _ .vmem, ⟨3, _⟩ => ⟨S2048x512, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x2048.size a
  hwx0_0 : ∀ i : grid0.Coords, EltTy.bits .f32 = 32 ∨ (Rect.block (s := S8192x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x2048.size a
  hwx0_1 : ∀ i : grid0.Coords, EltTy.bits .f32 = 32 ∨ (Rect.block (s := S2048x2048) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048x2048, .f32⟩
  | .hbm, ⟨5, _⟩ => ⟨S2048x2048, .i1⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.FiniteWeights.lean ====
/-
  The precondition read back: `finite_inputs` holds of the three argument arrays only if every entry of the weight
  array is a real number.  The predicate is the conjunction of three `all(|·| < +∞)`; the middle one, read at an
  entry `v` of the weights, says `max v (−v) < ⊤`, which rules out both infinities.
-/
import proofs.«105446_j67156108640875_1_alg».proof.Pre_finite_inputs
import proofs.«105446_j67156108640875_1_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

open Idealize.ShloMosaic

namespace Cert.FiniteWeights

open Cert.Pre_finite_inputs

instance : Subsingleton S_.Idx := ⟨fun a b => funext fun d => d.elim0⟩

/-- The word `0x7F800000` denotes `+∞`. -/
theorem ofBits_inf : Ideal.ofBits .f32 0x7F800000#32 = (⊤ : EReal) := by
  simp [Ideal.ofBits, Ideal.ieee]

/-- An extended real whose absolute value compares below `+∞` is a real number. -/
theorem real_of_abs_lt_top (v : EReal) (h : Ideal.cmp .olt (max v (-v)) ⊤ = 1#1) : ∃ r : ℝ, v = (r : EReal) := by
  induction v using EReal.rec with
  | bot => simp [Ideal.cmp] at h
  | top => simp [Ideal.cmp] at h
  | coe r => exact ⟨r, rfl⟩

/-- Under `finite_inputs` every weight is a real number. -/
theorem weights_real [Facts] (x : FVec Ideal S8192x2048 .f32) (w : FVec Ideal S2048x2048 .f32) (b : FVec Ideal S2048 .f32)
    (h : fn (F := Ideal) x w b = fun _ => 1#1) (i : S2048x2048.Idx) : ∃ r : ℝ, w i = (r : EReal) := by
  have h0 := congrFun h ValueIdx.ix0
  dsimp only [fn] at h0
  obtain ⟨h8, -⟩ := IntOp.andi_eq_one.1 h0
  obtain ⟨-, h7⟩ := IntOp.andi_eq_one.1 h8
  have hi := Host.reduce_andi_all _ _ _ _ _ h7 i
  have hi' : Ideal.cmp .olt (max (w i) (-(w i))) (Ideal.ofBits .f32 0x7F800000#32) = 1#1 := hi
  rw [ofBits_inf] at hi'
  exact real_of_abs_lt_top _ hi'

end Cert.FiniteWeights

end
-- ==== Proof.LibFinSum.lean ====
/-
  Finite sums re-indexed: a sum over the `m * n` flat positions of a row-major `m × n` table is the sum over its rows of
  the sum along each row (entry `(i, j)` sits at position `i * n + j`), and a sum over the multi-indices of a rank-1
  shape is the sum over its one coordinate.  Only commutativity and associativity of the addition are used, so the
  statements hold in every commutative additive monoid, the extended reals with their infinities included.
-/
import Idealize.ShloMosaic.Lib.ValueIdx

open Idealize.ShloMosaic Idealize.ShloMosaic.ValueIdx

namespace Cert.LibFinSum

/-- Entry `(i, j)` of an `m × n` table sits inside its `m * n` flat positions. -/
theorem coord_lt {m n i j : ℕ} (hi : i < m) (hj : j < n) : i * n + j < m * n :=
  calc i * n + j < i * n + n := by omega
    _ = (i + 1) * n := by ring
    _ ≤ m * n := Nat.mul_le_mul_right n hi

/-- A sum over the flat positions of an `m × n` table, row by row. -/
theorem sum_fin_mul {M : Type*} [AddCommMonoid M] (m n : ℕ) (f : Fin (m * n) → M) :
    ∑ k, f k = ∑ i : Fin m, ∑ j : Fin n, f ⟨i.val * n + j.val, coord_lt i.isLt j.isLt⟩ := by
  rw [← (finProdFinEquiv (m := m) (n := n)).sum_comp f, Fintype.sum_prod_type]
  refine Finset.sum_congr rfl fun i _ => Finset.sum_congr rfl fun j _ => congrArg f (Fin.ext ?_)
  show j.val + n * i.val = i.val * n + j.val
  ring

/-- The same when the number of positions is only known to equal `m * n` (a literal such as `33554432 = 262144 * 128`). -/
theorem sum_fin_of_eq_mul {M : Type*} [AddCommMonoid M] {N : ℕ} (m n : ℕ) (h : N = m * n) (f : Fin N → M) :
    ∑ k, f k = ∑ i : Fin m, ∑ j : Fin n, f ⟨i.val * n + j.val, h ▸ coord_lt i.isLt j.isLt⟩ := by
  subst h
  exact sum_fin_mul m n f

/-- A rank-1 multi-index is its one coordinate. -/
def idxEquiv1 {n : ℕ} : (⟨1, ![n]⟩ : Shape).Idx ≃ Fin n where
  toFun j := j 0
  invFun := ix1
  left_inv j := (eq_ix1 j).symm
  right_inv _ := rfl

/-- A sum over the multi-indices of a rank-1 shape is the sum over its coordinate. -/
theorem sum_idx1 {M : Type*} [AddCommMonoid M] {n : ℕ} (f : (⟨1, ![n]⟩ : Shape).Idx → M) :
    ∑ i, f i = ∑ k : Fin n, f (ix1 k) :=
  (idxEquiv1.symm.sum_comp f).symm

end Cert.LibFinSum
-- ==== Proof.BinaryLinear.lean ====
/-
  The binary-weight linear layer as ONE function of its three argument arrays, over the extended reals.

  For x : [8192, 2048], w : [2048, 2048], b : [2048] the result at (r, c) is

      (Σ_{k < 2048} x[r, k] · sgn(w[c, k])) + b[c],        sgn(v) = +1 where 0 ≤ v, −1 elsewhere.

  Two laws join the two programs to it.  The straight-through form `v + (sgn v − v)` is `sgn v` as soon as `v` is a
  real number (at an infinity the inner difference is the opposite infinity and the sum is not `±1`: this is where
  finiteness of the weights is used).  And a sum over the 2048 contraction positions is the sum, over the four
  blocks of 512 consecutive positions, of the sums inside each block: a regrouping, true in any commutative monoid,
  so the infinities do no harm there.
-/
import Idealize.ShloMosaic.PureOps.Ideal
import Idealize.ShloMosaic.PureOps.Ideal.Laws
import Idealize.ShloMosaic.Lib.ValueIdx
import proofs.«105446_j67156108640875_1_alg».proof.Proof.LibFinSum

noncomputable section

open Idealize.ShloMosaic Idealize.ShloMosaic.ValueIdx

namespace Cert.BinaryLinear

/-- The shapes of the three arguments and of the result. -/
abbrev SX : Shape := ⟨2, ![8192, 2048]⟩
abbrev SW : Shape := ⟨2, ![2048, 2048]⟩
abbrev SB : Shape := ⟨1, ![2048]⟩

/-- The binarized weight: the word `1.0` where `0 ≤ v`, the word `-1.0` elsewhere (at `⊥` too). -/
def sgn (v : EReal) : EReal :=
  Scalar.select (Ideal.cmp .oge v (Ideal.ofBits .f32 0x00000000#32))
    (Ideal.ofBits .f32 0x3F800000#32) (Ideal.ofBits .f32 0xBF800000#32)

/-- The word `1.0` denotes the real `1`. -/
theorem ofBits_one : Ideal.ofBits .f32 0x3F800000#32 = ((1 : ℝ) : EReal) := by
  simp [Ideal.ofBits, Ideal.ieee]
  rw [← EReal.coe_mul]
  norm_num

/-- The word `-1.0` denotes the real `-1`. -/
theorem ofBits_neg_one : Ideal.ofBits .f32 0xBF800000#32 = ((-1 : ℝ) : EReal) := by
  simp [Ideal.ofBits, Ideal.ieee]
  rw [← EReal.coe_mul]
  norm_num

/-- Whatever `v` is, `sgn v` is a real number (one of `1`, `-1`). -/
theorem sgn_real (v : EReal) : ∃ s : ℝ, sgn v = (s : EReal) := by
  unfold sgn Scalar.select
  split
  · exact ⟨1, ofBits_one⟩
  · exact ⟨-1, ofBits_neg_one⟩

/-- THE STRAIGHT-THROUGH LAW: for a real `v`, `v + (sgn v − v) = sgn v`. -/
theorem ste_collapse (v : ℝ) : (v : EReal) + (sgn (v : EReal) - (v : EReal)) = sgn (v : EReal) := by
  obtain ⟨s, hs⟩ := sgn_real (v : EReal)
  rw [hs, ← EReal.coe_sub, ← EReal.coe_add]
  exact congrArg _ (by ring)

/-- THE RESULT, index by index. -/
def G (x : SX.Idx → EReal) (w : SW.Idx → EReal) (b : SB.Idx → EReal) : SX.Idx → EReal :=
  fun i => (∑ k : Fin 2048, x (ix2 (i 0) k) * sgn (w (ix2 (i 1) k))) + b (ix1 (i 1))

theorem G_apply (x : SX.Idx → EReal) (w : SW.Idx → EReal) (b : SB.Idx → EReal) (r : Fin 8192) (c : Fin 2048) :
    G x w b (ix2 r c) = (∑ k : Fin 2048, x (ix2 r k) * sgn (w (ix2 c k))) + b (ix1 c) := rfl

/-- Position `k` of block `s` among the 2048 contraction positions. -/
abbrev pos (s : Fin 4) (k : Fin 512) : Fin 2048 := ⟨s.val * 512 + k.val, by have := s.isLt; have := k.isLt; omega⟩

/-- THE REGROUPING: a sum over the 2048 positions is the sum over the four blocks of the sums inside each. -/
theorem sum_blocks (f : Fin 2048 → EReal) : ∑ k, f k = ∑ s : Fin 4, ∑ k : Fin 512, f (pos s k) :=
  Cert.LibFinSum.sum_fin_of_eq_mul 4 512 (by norm_num) f

end Cert.BinaryLinear

end
-- ==== Proof.ReferenceValue.lean ====
/-
  The reference's result is the binary-weight linear layer's function of the three argument arrays, provided every
  weight is a real number.

  Read operation by operation, the reference computes at (r, c)

      (Σ_k x[r, k] · (w[c, k] + (sgn(w[c, k]) − w[c, k]))) + b[c]:

  the contraction is over the second axis of both operands, and the bias is laid along the second axis of the result.
  The straight-through law replaces the inner term by `sgn(w[c, k])` for a real weight.
-/
import proofs.«105446_j67156108640875_1_alg».proof.Proof.Gen.ReferenceIdeal.Read
import proofs.«105446_j67156108640875_1_alg».proof.Proof.BinaryLinear

noncomputable section

open Idealize.ShloMosaic Idealize.ShloMosaic.ValueIdx

namespace Cert.ReferenceIdeal.RefValue

open Cert.ReferenceIdeal Cert.ReferenceIdeal.Read Cert.BinaryLinear

/-- The straight-through weight at an entry: `w + (select(w ≥ 0, 1, −1) − w)` is `sgn w` for a real `w`. -/
theorem ste_apply (w : S2048x2048.Idx → EReal) (i : S2048x2048.Idx) (hw : ∃ v : ℝ, w i = (v : EReal)) :
    val_main_v5 (F := Ideal) w i = sgn (w i) := by
  obtain ⟨v, hv⟩ := hw
  rw [val_main_v5_apply, val_main_v4_apply, val_main_v3_apply, val_main_v2_apply, val_main_v1_apply, val_main_v0_apply,
    val_main_call0_v0_apply, val_main_call0_v1_apply, val_main_cst_apply, val_main_cst_0_apply, val_main_cst_1_apply]
  show w i + (sgn (w i) - w i) = sgn (w i)
  rw [hv]
  exact ste_collapse v

/-- The left operand of the contraction at result entry (r, c), position k: x[r, k]. -/
theorem lidx_eq (r : Fin 8192) (c : Fin 2048) (k : Fin 2048) : lidx_main_v6 (ix2 r c) k = ix2 r k :=
  funext fun a => by match a with | ⟨0, _⟩ => rfl | ⟨1, _⟩ => rfl

/-- The right operand there: the weight at [c, k]. -/
theorem ridx_eq (r : Fin 8192) (c : Fin 2048) (k : Fin 2048) : ridx_main_v6 (ix2 r c) k = ix2 c k :=
  funext fun a => by match a with | ⟨0, _⟩ => rfl | ⟨1, _⟩ => rfl

/-- The bias entry added at (r, c): b[c]. -/
theorem bidx_eq (r : Fin 8192) (c : Fin 2048) : idx_main_v7 (idx_main_v8 (ix2 r c)) = ix1 c :=
  funext fun a => by match a with | ⟨0, _⟩ => rfl

/-- THE REFERENCE IS THE LAYER'S FUNCTION, for real weights. -/
theorem ref_eq (x : S8192x2048.Idx → EReal) (w : S2048x2048.Idx → EReal) (b : S2048.Idx → EReal)
    (hw : ∀ i, ∃ v : ℝ, w i = (v : EReal)) : val_main_v9 (F := Ideal) x w b = G x w b := by
  funext i
  obtain ⟨r, c, rfl⟩ : ∃ (r : Fin 8192) (c : Fin 2048), i = ix2 r c := ⟨i 0, i 1, eq_ix2 i⟩
  rw [val_main_v9_apply, val_main_v6_apply, val_main_v8_apply, val_main_v7_apply, G_apply, bidx_eq]
  show (∑ k : Fin 2048, x (lidx_main_v6 (ix2 r c) k) * val_main_v5 (F := Ideal) w (ridx_main_v6 (ix2 r c) k)) + b (ix1 c) = _
  refine congrArg (· + b (ix1 c)) (Finset.sum_congr rfl fun k _ => ?_)
  rw [lidx_eq, ridx_eq, ste_apply w _ (hw _)]

end Cert.ReferenceIdeal.RefValue

end
-- ==== Proof.BodyPieces.lean ====
/-
  What one run of the kernel body leaves behind, in each of its three control cases, as plain values.

  The body keeps a [512, 2048] accumulator in scratch memory.  Writing `step x w a` for the accumulator `a` plus the
  product of the x block with the binarized weight block (the body's second store), and `zero` for the block of
  zeros (its first store):
    * at the first contraction block (k = 0) the accumulator is reset and then stepped: it ends at `step x w zero`,
      the stored zeros being read back before the step;
    * at a middle block it ends at `step x w a` over what the point before left, `a`;
    * at the last block (k = 3) likewise, and the output block receives that new accumulator, read back, plus the
      bias row (the body's third store).
  Each statement holds on any whole staging buffers and at any float instance.
-/
import proofs.«105446_j67156108640875_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every access of the body starts at the origin of its buffer. -/
theorem hz : (![0, 0] : Fin 2 → Nat) = fun _ => 0 := funext fun a => by fin_cases a <;> rfl

/-- A middle contraction block: the accumulator is stepped over what the point before left. -/
theorem scratch_mid (c : Dev nD) (i : grid0.Coords) (arg2 : Memref sig .tc .vmem S512x512 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : ¬cond0_1 i)
    (x0 : Vec F S512x512 .f32) (x1 : Vec F S2048x512 .f32) (x2 : Vec F S1x2048 .f32) (xs0 : Vec F S512x2048 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread, View.ld_unit_zero (S := S512x512) hz, View.ld_unit_zero (S := S2048x512) hz, View.ld_unit_zero (S := S512x2048) hz, View.ld_unit_zero (S := S1x2048) hz, View.readCov_unit_zero (S := S512x2048) _ hz]

/-- The first contraction block: the accumulator is reset to zeros, read back and stepped. -/
theorem scratch_first (c : Dev nD) (i : grid0.Coords) (arg2 : Memref sig .tc .vmem S512x512 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : cond0_0 i) (hc1 : ¬cond0_1 i)
    (x0 : Vec F S512x512 .f32) (x1 : Vec F S2048x512 .f32) (x2 : Vec F S1x2048 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg6.read_unread, View.ld_unit_zero (S := S512x512) hz, View.ld_unit_zero (S := S2048x512) hz, View.ld_unit_zero (S := S512x2048) hz, View.ld_unit_zero (S := S1x2048) hz, View.readCov_unit_zero (S := S512x2048) _ hz]

/-- The last contraction block: the output block is the stepped accumulator, read back, plus the bias row. -/
theorem out_last (c : Dev nD) (i : grid0.Coords) (arg2 : Memref sig .tc .vmem S512x512 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x512 .f32) (x1 : Vec F S2048x512 .f32) (x2 : Vec F S1x2048 .f32) (xs0 : Vec F S512x2048 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S512x512) hz, View.ld_unit_zero (S := S2048x512) hz, View.ld_unit_zero (S := S512x2048) hz, View.ld_unit_zero (S := S1x2048) hz, View.readCov_unit_zero (S := S512x2048) _ hz]

/-- The last contraction block: the accumulator itself is stepped as at a middle block. -/
theorem scratch_last (c : Dev nD) (i : grid0.Coords) (arg2 : Memref sig .tc .vmem S512x512 .f32) (harg2 : arg2.IsWhole) (arg3 : Memref sig .tc .vmem S2048x512 .f32) (harg3 : arg3.IsWhole) (arg4 : Memref sig .tc .vmem S1x2048 .f32) (harg4 : arg4.IsWhole) (arg5 : Memref sig .tc .vmem S512x2048 .f32) (harg5 : arg5.IsWhole) (arg6 : Memref sig .tc .vmem S512x2048 .f32) (harg6 : arg6.IsWhole) (hc0 : ¬cond0_0 i) (hc1 : cond0_1 i)
    (x0 : Vec F S512x512 .f32) (x1 : Vec F S2048x512 .f32) (x2 : Vec F S1x2048 .f32) (xs0 : Vec F S512x2048 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread, View.ld_unit_zero (S := S512x512) hz, View.ld_unit_zero (S := S2048x512) hz, View.ld_unit_zero (S := S512x2048) hz, View.ld_unit_zero (S := S1x2048) hz, View.readCov_unit_zero (S := S512x2048) _ hz]

end Cert.KernelIdeal.Pieces

end
-- ==== Proof.BodyValue.lean ====
/-
  The body's three stored values read at an entry, over the extended reals.

  With the x block `x` : [512, 512], the weight block `w` : [2048, 512] and an accumulator `a` : [512, 2048], at the
  entry (p, q):
    * the reset value is `0`;
    * the step is `a[p, q] + Σ_{k < 512} x[p, k] · sgn(w[q, k])`: a change of float format is the identity on the
      extended reals, the matrix product starts from a zero accumulator, and it contracts the second axis of both
      operands (the product's operand indices at (p, q) and contraction position k are (p, k) and (q, k));
    * the output value is `a[p, q] + b[0, q]` for the bias row `b` : [1, 2048], laid along every row.
-/
import proofs.«105446_j67156108640875_1_alg».proof.Proof.Gen.KernelIdeal.Skeleton
import proofs.«105446_j67156108640875_1_alg».proof.Proof.BinaryLinear
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.BodyValue

open Cert.KernelIdeal Cert.KernelIdeal.Gen Cert.BinaryLinear

/-- The product's left operand index at a result entry keeps the entry's row … -/
theorem lhs_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
/-- … and takes the contraction position as its column. -/
theorem lhs_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
/-- The right operand index takes the entry's column as its row … -/
theorem rhs_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
/-- … and the contraction position as its column. -/
theorem rhs_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- THE STEP at an entry: the accumulator plus the block's sum of products with the binarized weights. -/
theorem step_apply (x0 : Vec Ideal S512x512 .f32) (x1 : Vec Ideal S2048x512 .f32) (acc : Vec Ideal S512x2048 .f32)
    (p : Fin 512) (q : Fin 2048) :
    k0_pay2 (F := Ideal) x0 x1 acc (ix2 p q) = acc (ix2 p q) + ∑ k : Fin 512, x0 (ix2 p k) * sgn (x1 (ix2 q k)) := by
  unfold k0_pay2
  rw [shapeCast_self]
  show acc (ix2 p q) + FloatOps.matmul (F := Ideal) dot_S512x512_S2048x512_S512x2048_1_1_0_0_n_n none _ _ (constant (F := Ideal) S512x2048 .f32 0x00000000#32) (ix2 p q) = _
  refine congrArg (acc (ix2 p q) + ·) ?_
  refine (Ideal.matmul_constant_zero_apply dot_S512x512_S2048x512_S512x2048_1_1_0_0_n_n none _ _ (ix2 p q)).trans ?_
  rw [← Equiv.sum_comp (ValueIdx.contrEquiv1 dot_S512x512_S2048x512_S512x2048_1_1_0_0_n_n 512 rfl rfl).symm]
  refine Finset.sum_congr rfl fun k _ => ?_
  have hk := ValueIdx.contrEquiv1_symm_val dot_S512x512_S2048x512_S512x2048_1_1_0_0_n_n 512 rfl rfl k
  have el : dot_S512x512_S2048x512_S512x2048_1_1_0_0_n_n.lhsIdx (ix2 p q) ((ValueIdx.contrEquiv1 dot_S512x512_S2048x512_S512x2048_1_1_0_0_n_n 512 rfl rfl).symm k) = ix2 p k := funext fun a => Fin.ext (by
    match a with
    | ⟨0, _⟩ => exact lhs_0 _ _
    | ⟨1, _⟩ => exact (lhs_1 _ _).trans hk)
  have er : dot_S512x512_S2048x512_S512x2048_1_1_0_0_n_n.rhsIdx (ix2 p q) ((ValueIdx.contrEquiv1 dot_S512x512_S2048x512_S512x2048_1_1_0_0_n_n 512 rfl rfl).symm k) = ix2 q k := funext fun a => Fin.ext (by
    match a with
    | ⟨0, _⟩ => exact rhs_0 _ _
    | ⟨1, _⟩ => exact (rhs_1 _ _).trans hk)
  rw [el, er]
  rfl

/-- THE OUTPUT VALUE at an entry: the accumulator plus the bias of the entry's column. -/
theorem output_apply (a : Vec Ideal S512x2048 .f32) (bb : Vec Ideal S1x2048 .f32) (p : Fin 512) (q : Fin 2048) :
    k0_pay3 (F := Ideal) a bb (ix2 p q) = a (ix2 p q) + bb (ix2 (0 : Fin 1) q) := by
  unfold k0_pay3
  rw [shapeCast_self]
  show a (ix2 p q) + broadcastTo S512x2048 bb broadcasts_S1x2048_S512x2048 (ix2 p q) = _
  refine congrArg (a (ix2 p q) + ·) ?_
  exact broadcastTo_apply bb _ (ix2 p q) (ix2 (0 : Fin 1) q) (fun a => by
    match a with
    | ⟨0, _⟩ => rfl
    | ⟨1, _⟩ => rfl)

/-- THE RESET VALUE at an entry: zero. -/
theorem reset_apply (j : S512x2048.Idx) : k0_pay1 (F := Ideal) j = 0 := by
  unfold k0_pay1
  rw [shapeCast_self]
  exact Ideal.ofBits_zero_f32

end Cert.KernelIdeal.BodyValue

end
-- ==== Proof.BlockReads.lean ====
/-
  What the body's three input blocks hold at grid point t, read from the argument arrays.

  The 64 points run over 16 row blocks (t / 4) and, inside each, 4 contraction blocks (t % 4).  At point t
    * the x block's entry (p, k) is x[512·(t / 4) + p, 512·(t % 4) + k];
    * the weight block's entry (q, k) is w[q, 512·(t % 4) + k]: all 2048 rows, one block of columns;
    * the bias row's entry (0, q) is b[q]: the row is the bias vector reshaped to [1, 2048] before the call.
  A block's coordinate is always (block index) × (block size) + (coordinate inside the block); the block indices are
  decided once over the grid.
-/
import proofs.«105446_j67156108640875_1_alg».proof.Proof.Gen.KernelIdeal.Frame.Runs
import Idealize.ShloMosaic.Lib.Pipeline.Value
import Idealize.ShloMosaic.Lib.StableHlo.Run
import Idealize.ShloMosaic.Lib.ValueIdx

noncomputable section

open Idealize.ShloMosaic Idealize.ShloMosaic.TcCoe Idealize.ShloMosaic.ValueIdx Idealize.SL.Sem

namespace Cert.KernelIdeal.BlockReads

open Cert.KernelIdeal Cert.KernelIdeal.Gen

variable {F : FTy → Type} [FloatOps F]
variable (m : (ℓ : Loc nD τ sig) → Buf (Elt F) ℓ)

/-- The four windows' block indices at point `t`. -/
theorem idx_facts : ∀ t : Fin cfg0.N, win0_0.index t (0 : Fin 2) = t.val / 4 ∧ win0_0.index t (1 : Fin 2) = t.val % 4
    ∧ win0_1.index t (0 : Fin 2) = 0 ∧ win0_1.index t (1 : Fin 2) = t.val % 4
    ∧ win0_2.index t (0 : Fin 2) = 0 ∧ win0_2.index t (1 : Fin 2) = 0
    ∧ win0_3.index t (0 : Fin 2) = t.val / 4 ∧ win0_3.index t (1 : Fin 2) = 0 :=
  (by decide +kernel : ∀ t : Fin grid0.N, _)

/-- The x block at point `t`, at an entry. -/
theorem xblk_apply (c : Dev nD) (t : Fin cfg0.N) (p k : Fin 512) (r : Fin 8192) (kk : Fin 2048)
    (hr : r.val = 512 * (t.val / 4) + p.val) (hk : kk.val = 512 * (t.val % 4) + k.val) :
    (iblk m c 0 t : Vec F S512x512 .f32) (ix2 p k) = m ((c : Thread nD τ).loc main_arg0) (ix2 r kk) := by
  obtain ⟨e0, e1, -⟩ := idx_facts t
  unfold iblk
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = r.val; omega
  | ⟨1, _⟩ => show win0_0.index t (1 : Fin 2) * 512 + 1 * k.val = kk.val; omega

/-- The weight block at point `t`, at an entry. -/
theorem wblk_apply (c : Dev nD) (t : Fin cfg0.N) (q : Fin 2048) (k : Fin 512) (kk : Fin 2048)
    (hk : kk.val = 512 * (t.val % 4) + k.val) :
    (iblk m c 1 t : Vec F S2048x512 .f32) (ix2 q k) = m ((c : Thread nD τ).loc main_arg1) (ix2 q kk) := by
  obtain ⟨-, -, e2, e3, -⟩ := idx_facts t
  unfold iblk
  show V m c main_arg1 (((cfg0.win 1).blk t).view.emb (ix2 q k)) = _
  rw [V_main_arg1]
  refine congrArg _ (funext fun a => Fin.ext ?_)
  match a with
  | ⟨0, _⟩ => show win0_1.index t (0 : Fin 2) * 2048 + 1 * q.val = q.val; omega
  | ⟨1, _⟩ => show win0_1.index t (1 : Fin 2) * 512 + 1 * k.val = kk.val; omega

/-- The array the bias window reads is the bias vector reshaped to one row. -/
theorem bias_row (c : Dev nD) : (V m c main_v0 : S1x2048.Idx → F .f32)
    = shapeCast S1x2048 (m ((c : Thread nD τ).loc main_arg2)) shapeCasts_S2048_S1x2048 := by
  dsimp only [Gen.V, Gen.hostOps0]; after_results; rfl

/-- The bias row at any point, at an entry. -/
theorem bblk_apply (c : Dev nD) (t : Fin cfg0.N) (q : Fin 2048) :
    (iblk m c 2 t : Vec F S1x2048 .f32) (ix2 (0 : Fin 1) q) = m ((c : Thread nD τ).loc main_arg2) (ix1 q) := by
  obtain ⟨-, -, -, -, e4, e5, -⟩ := idx_facts t
  unfold iblk
  show V m c main_v0 (((cfg0.win 2).blk t).view.emb (ix2 (0 : Fin 1) q)) = _
  rw [bias_row]
  refine (shapeCast_addUnit_apply ![2048] _ _ _).trans ?_
  refine congrArg _ (funext fun a => Fin.ext ?_)
  match a with
  | ⟨0, _⟩ => show win0_2.index t (1 : Fin 2) * 2048 + 1 * q.val = q.val; omega

end Cert.KernelIdeal.BlockReads

end
-- ==== Proof.KernelValue.lean ====
/-
  The kernel's result array is the binary-weight linear layer's function of the three argument arrays.

  The grid's 64 points are 16 runs of 4: run u works on rows 512·u … 512·u + 511 of the result and walks the four
  contraction blocks.  The accumulator after point 4·u + j is, entry by entry,

      0 + Σ_{s ≤ j} A(4·u + s),     A(n)[p, q] = Σ_{k < 512} xblock_n[p, k] · sgn(wblock_n[q, k]),

  the fold of the body's step from the reset at the run's first point.  The run's last point writes back the
  accumulator plus the bias row; there the four addends, read from the argument arrays, are the four blocks of the
  2048-term sum of the layer at row 512·u + p, and regrouping the sum gives the layer's value.  The 16 row blocks
  written back tile the result array, so the array ends as the layer's function everywhere.
-/
import proofs.«105446_j67156108640875_1_alg».proof.Proof.Gen.KernelIdeal.Value
import proofs.«105446_j67156108640875_1_alg».proof.Proof.BodyPieces
import proofs.«105446_j67156108640875_1_alg».proof.Proof.BodyValue
import proofs.«105446_j67156108640875_1_alg».proof.Proof.BlockReads
import proofs.«105446_j67156108640875_1_alg».proof.Proof.BinaryLinear

noncomputable section

open Idealize.ShloMosaic Idealize.ShloMosaic.TcCoe Idealize.ShloMosaic.ValueIdx Idealize.SL.Sem
open Idealize.ShloMosaic.Pipeline (Dat)

namespace Cert.KernelIdeal.KernelValue

open Cert.KernelIdeal Cert.KernelIdeal.Gen Cert.BinaryLinear

variable (m : (ℓ : Loc nD τ sig) → Buf (Elt Ideal) ℓ) (ρ : Dev nD → PrngReg)

/-- The three argument arrays as launched, under their literal types. -/
abbrev xarr (c : Dev nD) : SX.Idx → EReal := m ((c : Thread nD τ).loc main_arg0)
abbrev warr (c : Dev nD) : SW.Idx → EReal := m ((c : Thread nD τ).loc main_arg1)
abbrev barr (c : Dev nD) : SB.Idx → EReal := m ((c : Thread nD τ).loc main_arg2)

/-- The x block and the weight block the body loads at point `n`. -/
abbrev xblk (c : Dev nD) (n : ℕ) (h : n < cfg0.N) : Vec Ideal S512x512 .f32 := iblk m c 0 (⟨n, h⟩ : Fin cfg0.N)
abbrev wblk (c : Dev nD) (n : ℕ) (h : n < cfg0.N) : Vec Ideal S2048x512 .f32 := iblk m c 1 (⟨n, h⟩ : Fin cfg0.N)

/-! ## The accumulator, point by point -/

/-- At a run's first point the accumulator is reset and stepped, whatever it held. -/
theorem acc_reset (c : Dev nD) (n : ℕ) (h : n < cfg0.N) (h0 : n % 4 = 0) (acc : Vec Ideal S512x2048 .f32) :
    Value.scAt0_0 m c n h acc = k0_pay2 (xblk m c n h) (wblk m c n h) (k0_pay1 (F := Ideal)) := by
  have h1 : ¬n % 4 = 3 := by omega
  unfold Value.scAt0_0
  rw [dif_pos h0, dif_neg h1]
  exact Pieces.scratch_first c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N))

/-- At every other point it is stepped over what the point before left. -/
theorem acc_step (c : Dev nD) (n : ℕ) (h : n < cfg0.N) (h0 : ¬n % 4 = 0) (acc : Vec Ideal S512x2048 .f32) :
    Value.scAt0_0 m c n h acc = k0_pay2 (xblk m c n h) (wblk m c n h) acc := by
  unfold Value.scAt0_0
  rw [dif_neg h0]
  by_cases h1 : n % 4 = 3
  · rw [dif_pos h1]
    exact Pieces.scratch_last c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) acc
  · rw [dif_neg h1]
    exact Pieces.scratch_mid c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) acc

/-- Point `n`'s addend: its x block times its binarized weight block, entry by entry (zero past the grid). -/
def addend (c : Dev nD) (n : ℕ) (j : S512x2048.Idx) : EReal :=
  if h : n < cfg0.N then ∑ k : Fin 512, (xblk m c n h (ix2 (j 0) k) : EReal) * sgn (wblk m c n h (ix2 (j 1) k)) else 0

theorem addend_apply (c : Dev nD) (n : ℕ) (h : n < cfg0.N) (p : Fin 512) (q : Fin 2048) :
    addend m c n (ix2 p q) = ∑ k : Fin 512, (xblk m c n h (ix2 p k) : EReal) * sgn (wblk m c n h (ix2 q k)) := by
  unfold addend
  rw [dif_pos h]

/-- THE FOLD: after point `t` the accumulator is zero plus the addends of its run's points up to `t`. -/
theorem acc_fold (c : Dev nD) (t : Fin cfg0.N) (j : S512x2048.Idx) :
    (outsAt0 m c t.val t.isLt).2 j = 0 + ∑ s ∈ Finset.range (t.val % 4 + 1), addend m c (4 * (t.val / 4) + s) j := by
  rw [Value.soutsAt0_0_eq m c t]
  refine Pipeline.accAt_add_apply _ _ (fun _ => (0 : EReal)) (addend m c) (4 * (t.val / 4)) 3 ?_ ?_ (t.val % 4) (by omega) _ j
  · intro h i
    obtain ⟨p, q, rfl⟩ : ∃ (p : Fin 512) (q : Fin 2048), i = ix2 p q := ⟨i 0, i 1, eq_ix2 i⟩
    show Value.scAt0_0 m c (4 * (t.val / 4)) h _ (ix2 p q) = _
    rw [acc_reset m c _ h (Nat.mul_mod_right 4 _), BodyValue.step_apply, BodyValue.reset_apply, addend_apply m c _ h]
  · intro n h acc i hlt hle
    obtain ⟨p, q, rfl⟩ : ∃ (p : Fin 512) (q : Fin 2048), i = ix2 p q := ⟨i 0, i 1, eq_ix2 i⟩
    rw [acc_step m c n h (by omega), BodyValue.step_apply, addend_apply m c n h]

/-- A run's addend read from the argument arrays: block `s` of the layer's sum at row `512·u + p`, column `q`. -/
theorem addend_eq (c : Dev nD) (u : ℕ) (hu : 4 * u + 3 < cfg0.N) (s : Fin 4) (p : Fin 512) (q : Fin 2048) (r : Fin 8192)
    (hr : r.val = 512 * u + p.val) :
    addend m c (4 * u + s.val) (ix2 p q) = ∑ k : Fin 512, xarr m c (ix2 r (pos s k)) * sgn (warr m c (ix2 q (pos s k))) := by
  have h : 4 * u + s.val < cfg0.N := by have := s.isLt; omega
  rw [addend_apply m c _ h]
  refine Finset.sum_congr rfl fun k _ => ?_
  have hs := s.isLt
  have hr' : r.val = 512 * ((4 * u + s.val) / 4) + p.val := by omega
  have hk' : (pos s k).val = 512 * ((4 * u + s.val) % 4) + k.val := by show s.val * 512 + k.val = _; omega
  exact congrArg₂ (fun a b => a * sgn b) (BlockReads.xblk_apply m c ⟨4 * u + s.val, h⟩ p k r (pos s k) hr' hk')
    (BlockReads.wblk_apply m c ⟨4 * u + s.val, h⟩ q k (pos s k) hk')

/-! ## What a run's last point writes back -/

/-- At a run's last point the output block is the new accumulator plus the bias row, so its entry (p, q) is the
    layer's value at row `512·(t / 4) + p`, column `q`. -/
theorem out_entry (c : Dev nD) (t : Fin cfg0.N) (h3 : t.val % 4 = 3) (p : Fin 512) (q : Fin 2048) (r : Fin 8192)
    (hr : r.val = 512 * (t.val / 4) + p.val) :
    (outsAt0 m c t.val t.isLt).1 (ix2 p q) = G (xarr m c) (warr m c) (barr m c) (ix2 r q) := by
  have h0 : ¬t.val % 4 = 0 := by omega
  have hN : t.val < 64 := lt_of_lt_of_eq t.isLt N_0
  have e1 : (outsAt0 m c t.val t.isLt).1 = k0_pay3 ((outsAt0 m c t.val t.isLt).2) (iblk m c 2 t) := by
    rw [outsAt0_C m c t h0 h3]
    dsimp only
    exact (Pieces.out_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) ((outsAt0 m c (t.val - 1) (Nat.lt_of_le_of_lt (Nat.sub_le _ _) t.isLt)).2)).trans
      (congrArg (fun a => k0_pay3 a (iblk m c 2 t))
        (Pieces.scratch_last c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) ((outsAt0 m c (t.val - 1) (Nat.lt_of_le_of_lt (Nat.sub_le _ _) t.isLt)).2)).symm)
  rw [e1, BodyValue.output_apply, acc_fold m c t (ix2 p q), BlockReads.bblk_apply m c t q, G_apply, h3, zero_add,
    Finset.sum_range, sum_blocks]
  refine congrArg (· + barr m c (ix1 q)) (Finset.sum_congr rfl fun s _ => ?_)
  exact addend_eq m c (t.val / 4) (by have : cfg0.N = 64 := N_0; omega) s p q r hr

/-- Entry (p, q) of point `t`'s output block sits at row `512·(t / 4) + p`, column `q` of the result array. -/
theorem emb_eq (t : Fin cfg0.N) (p : Fin 512) (q : Fin 2048) (r : Fin 8192) (hr : r.val = 512 * (t.val / 4) + p.val) :
    ((cfg0.win 3).blk t).view.emb (ix2 p q) = (ix2 r q : S8192x2048.Idx) := by
  obtain ⟨-, -, -, -, -, -, e6, e7⟩ := BlockReads.idx_facts t
  refine funext fun a => Fin.ext ?_
  match a with
  | ⟨0, _⟩ => show win0_3.index t (0 : Fin 2) * 512 + 1 * p.val = r.val; omega
  | ⟨1, _⟩ => show win0_3.index t (1 : Fin 2) * 2048 + 1 * q.val = q.val; omega

/-- WHAT A WRITE-BACK WRITES is its block of the layer's function of the argument arrays. -/
theorem flushed_eq (c : Dev nD) (t : Fin cfg0.N) (hf : (cfg0.win 3).flush t = true) :
    (dats m 0 c).flushed 3 t = ((cfg0.win 3).blk t).view.read (Elt Ideal) (G (xarr m c) (warr m c) (barr m c)) := by
  have h3 : t.val % 4 = 3 := (flush0_3 t).mp hf
  have hN : t.val < 64 := lt_of_lt_of_eq t.isLt N_0
  rw [Value.flushed3]
  funext y
  show (outsAt0 m c t.val t.isLt).1 y = G (xarr m c) (warr m c) (barr m c) (((cfg0.win 3).blk t).view.emb y)
  obtain ⟨p, q, rfl⟩ : ∃ (p : Fin 512) (q : Fin 2048), y = ix2 p q := ⟨y 0, y 1, eq_ix2 y⟩
  rw [emb_eq t p q ⟨512 * (t.val / 4) + p.val, by have := p.isLt; omega⟩ rfl]
  exact out_entry m c t h3 p q _ rfl

/-! ## The row blocks tile the result array -/

/-- An index of the result array is in point `t`'s block iff each coordinate is in the block's range on its axis. -/
theorem mem_blk (t : Fin cfg0.N) (i : S8192x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v1).slice (win0_3.rect t)).set ↔ _
  rw [View.set_slice_whole, Rect.mem_set_unit]
  exact Iff.rfl

/-- Row `i₀` of the result lies in the block the last point of run `i₀ / 512` writes back. -/
theorem cover (i : S8192x2048.Idx) : ∃ t : Fin cfg0.N, (cfg0.win 3).flush t = true ∧ i ∈ ((cfg0.win 3).blk t).view.set := by
  have hi0 : (i 0).val < 8192 := (i 0).isLt
  have hi1 : (i 1).val < 2048 := (i 1).isLt
  have hN : cfg0.N = 64 := N_0
  have hlt : 4 * ((i 0).val / 512) + 3 < cfg0.N := by omega
  obtain ⟨-, -, -, -, -, -, e6, e7⟩ := BlockReads.idx_facts ⟨4 * ((i 0).val / 512) + 3, hlt⟩
  refine ⟨⟨4 * ((i 0).val / 512) + 3, hlt⟩, (flush0_3 _).mpr (by show (4 * ((i 0).val / 512) + 3) % 4 = 3; omega), ?_⟩
  rw [mem_blk]
  have e6' : win0_3.index ⟨4 * ((i 0).val / 512) + 3, hlt⟩ (0 : Fin 2) = (4 * ((i 0).val / 512) + 3) / 4 := e6
  intro a
  match a with
  | ⟨0, _⟩ =>
    show win0_3.index ⟨4 * ((i 0).val / 512) + 3, hlt⟩ (0 : Fin 2) * 512 ≤ (i 0).val ∧ (i 0).val < win0_3.index ⟨4 * ((i 0).val / 512) + 3, hlt⟩ (0 : Fin 2) * 512 + 512
    rw [e6']; omega
  | ⟨1, _⟩ =>
    show win0_3.index ⟨4 * ((i 0).val / 512) + 3, hlt⟩ (1 : Fin 2) * 2048 ≤ (i 1).val ∧ (i 1).val < win0_3.index ⟨4 * ((i 0).val / 512) + 3, hlt⟩ (1 : Fin 2) * 2048 + 2048
    rw [e7]; omega

/-- THE RESULT ARRAY after the run is the layer's function of the argument arrays. -/
theorem final (c : Dev nD) : (dats m 0 c).arrAt 3 cfg0.N = G (xarr m c) (warr m c) (barr m c) :=
  (dats m 0 c).arrAt_eq_of_cover 3 (G (xarr m c) (warr m c) (barr m c)) (fun t hf => flushed_eq m c t hf) cover

/-- The run, read: the result array at the layer's function, the three arguments unchanged. -/
theorem run : θ_run defs (onTc (τ := τ) (main (F := Ideal))) ⟨m, fun _ => 0, ρ⟩ fun r => ∀ c : Dev nD,
      r.2.mem ((c : Thread nD τ).loc main_v1) = G (xarr m c) (warr m c) (barr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.lean ====
/-
  A linear layer with binarized weights: out = x · sgn(w)ᵀ + b, for x : [8192, 2048], w : [2048, 2048], b : [2048],
  where sgn(v) is +1 for 0 ≤ v and −1 otherwise.

  The kernel walks a 16 × 4 grid.  For each block of 512 rows of x it accumulates, over the four blocks of 512
  contraction positions, the product of the x block with the binarized weight block into a [512, 2048]
  accumulator it resets at the first block, and after the fourth it writes the accumulator plus the bias row to
  the result.  The reference forms the straight-through weight w + (sgn w − w), contracts x with it over all 2048
  positions at once, and adds the bias.

  Over the extended reals both results are, at (r, c),  (Σ_{k < 2048} x[r, k] · sgn(w[c, k])) + b[c]
  (`BinaryLinear.G`):
    * the kernel's, because a change of float format is the identity there, the accumulator after a run of four
      points is zero plus the four blocks' sums (the fold of its step), and a sum over 2048 positions is the sum of
      its four blocks of 512: a regrouping, valid with infinite terms too (`KernelValue.run`);
    * the reference's, because w + (sgn w − w) = sgn w whenever w is a real number (`ReferenceValue.ref_eq`), and
      the precondition makes every weight real (`FiniteWeights.weights_real`).  This is the one place finiteness
      enters: at w = ±∞ the straight-through weight is not ±1.
  The idealization pass rewrote nothing, so `preserves` is trivial.  The kernel's two frames are the generated ones;
  the reference's frame is its generated run with the result dropped.
-/
import proofs.«105446_j67156108640875_1_alg».proof.Defs
import proofs.«105446_j67156108640875_1_alg».proof.Proof.Gen.Kernel
import proofs.«105446_j67156108640875_1_alg».proof.Proof.Gen.Kernel.Skeleton
import proofs.«105446_j67156108640875_1_alg».proof.Proof.Gen.Kernel.Launch
import proofs.«105446_j67156108640875_1_alg».proof.Proof.Gen.Kernel.Points
import proofs.«105446_j67156108640875_1_alg».proof.Proof.Gen.Kernel.Frame
import proofs.«105446_j67156108640875_1_alg».proof.Proof.Gen.KernelIdeal
import proofs.«105446_j67156108640875_1_alg».proof.Proof.Gen.KernelIdeal.Skeleton
import proofs.«105446_j67156108640875_1_alg».proof.Proof.Gen.KernelIdeal.Launch
import proofs.«105446_j67156108640875_1_alg».proof.Proof.Gen.KernelIdeal.Points
import proofs.«105446_j67156108640875_1_alg».proof.Proof.Gen.KernelIdeal.Frame
import proofs.«105446_j67156108640875_1_alg».proof.Proof.Gen.ReferenceIdeal
import proofs.«105446_j67156108640875_1_alg».proof.Proof.Gen.Pre_finite_inputs
import proofs.«105446_j67156108640875_1_alg».proof.Proof.Gen.KernelIdeal.Value
import proofs.«105446_j67156108640875_1_alg».proof.Proof.Gen.ReferenceIdeal.Run
import proofs.«105446_j67156108640875_1_alg».proof.Proof.Gen.ReferenceIdeal.Read
import proofs.«105446_j67156108640875_1_alg».proof.Proof.FiniteWeights
import proofs.«105446_j67156108640875_1_alg».proof.Proof.ReferenceValue
import proofs.«105446_j67156108640875_1_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on x, w and b, with finite entries, both programs end with the layer's function of the
    three arrays in their result: the kernel by the fold over each run of four points, the reference by the
    straight-through law at real weights. -/
theorem algebraic : Cert.algebraic_KernelIdeal_ReferenceIdeal := by
  intro m ρ m' ρ' hpre hagree
  refine ⟨fun c => Cert.BinaryLinear.G (Cert.KernelIdeal.KernelValue.xarr m c) (Cert.KernelIdeal.KernelValue.warr m c)
    (Cert.KernelIdeal.KernelValue.barr m c), Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2.1, (hagree c).2.2]
  exact Cert.ReferenceIdeal.RefValue.ref_eq _ _ _ (fun i => Cert.FiniteWeights.weights_real _ _ _ (hpre c) i)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
